-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S128x32000 : Shape := ⟨2, ![128, 32000]⟩
abbrev S128 : Shape := ⟨1, ![128]⟩
abbrev S_ : Shape := ⟨0, ![]⟩

class Facts : Prop where
  bcast_S_S128x32000 : S_.BroadcastsInDim S128x32000 (![] : Fin 0 → Fin S128x32000.rank)
  reducesTo_S128x32000_S_d0_1 : S128x32000.ReducesTo [0, 1] S_
  h_S_ : 0 < S_.numel
  bcast_S_S128 : S_.BroadcastsInDim S128 (![] : Fin 0 → Fin S128.rank)
  reducesTo_S128_S_d0 : S128.ReducesTo [0] S_
  bcast_S_S32x8192 : S_.BroadcastsInDim S32x8192 (![] : Fin 0 → Fin S32x8192.rank)
  reducesTo_S32x8192_S_d0_1 : S32x8192.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S32x8192 32) (main_arg1 : FVec F S128x32000 .f32) (main_arg2 : FVec F S128 .f32) : IVec S_ 1 :=
  let main_v0 : FVec F S128x32000 .f32 := Host.absf main_arg1
  let main_cst : FVec F S_ .f32 := constant S_ .f32 0x7F800000#32
  let main_v1 : FVec F S128x32000 .f32 := broadcastInDim S128x32000 ![] bcast_S_S128x32000 main_cst
  let main_v2 : IVec S128x32000 1 := cmpf .olt main_v0 main_v1
  let main_c : IVec S_ 1 := constantI S_ 1 1#1
  let main_v3 : IVec S_ 1 := (fun x v => Host.reduce IntOp.andi x v reducesTo_S128x32000_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S32x8192 32 := broadcastInDim S32x8192 ![] bcast_S_S32x8192 main_c_2
  let main_v10 : IVec S32x8192 1 := cmpi .sge main_arg0 main_v9
  let main_c_3 : IVec S_ 1 := constantI S_ 1 1#1
  let main_v11 : IVec S_ 1 := (fun x v => Host.reduce IntOp.andi x v reducesTo_S32x8192_S_d0_1 h_S_) main_v10 main_c_3
  let main_v12 : IVec S_ 1 := andi main_v8 main_v11
  let main_c_4 : IVec S_ 32 := constantI S_ 32 32000#32
  let main_v13 : IVec S32x8192 32 := broadcastInDim S32x8192 ![] bcast_S_S32x8192 main_c_4
  let main_v14 : IVec S32x8192 1 := cmpi .slt main_arg0 main_v13
  let main_c_5 : IVec S_ 1 := constantI S_ 1 1#1
  let main_v15 : IVec S_ 1 := (fun x v => Host.reduce IntOp.andi x v reducesTo_S32x8192_S_d0_1 h_S_) main_v14 main_c_5
  fn_part1 (F := F) main_v12 main_v15
-- ==== Kernel.lean ====
abbrev S32x8192 : Shape := ⟨2, ![32, 8192]⟩
abbrev S128x32000 : Shape := ⟨2, ![128, 32000]⟩
abbrev S128 : Shape := ⟨1, ![128]⟩
abbrev S262144x1 : Shape := ⟨2, ![262144, 1]⟩
abbrev S262144x128 : Shape := ⟨2, ![262144, 128]⟩
abbrev S512x1 : Shape := ⟨2, ![512, 1]⟩
abbrev S512x128 : Shape := ⟨2, ![512, 128]⟩
abbrev S128x1280 : Shape := ⟨2, ![128, 1280]⟩
abbrev S512x1280 : Shape := ⟨2, ![512, 1280]⟩
abbrev S1x128 : Shape := ⟨2, ![1, 128]⟩
abbrev S32x8192x128 : Shape := ⟨3, ![32, 8192, 128]⟩

abbrev nBuf : Space → Nat
  | .hbm => 7
  | .vmem => 6
  | .smem => 0
  | _ => 0

abbrev bufTy : (tb : Table) → Fin (tcTables nBuf tb) → BufTy
  | .hbm, ⟨0, _⟩ => ⟨S32x8192, .i32⟩
  | .hbm, ⟨1, _⟩ => ⟨S128x32000, .f32⟩
  | .hbm, ⟨2, _⟩ => ⟨S128, .f32⟩
  | .hbm, ⟨3, _⟩ => ⟨S262144x1, .i32⟩
  | .hbm, ⟨4, _⟩ => ⟨S128x32000, .bf16⟩
  | .hbm, ⟨5, _⟩ => ⟨S262144x128, .f32⟩
  | .hbm, ⟨6, _⟩ => ⟨S32x8192x128, .f32⟩
  | .local _ .vmem, ⟨0, _⟩ => ⟨S512x1, .i32⟩
  | .local _ .vmem, ⟨1, _⟩ => ⟨S512x1, .i32⟩
  | .local _ .vmem, ⟨2, _⟩ => ⟨S128x32000, .bf16⟩
  | .local _ .vmem, ⟨3, _⟩ => ⟨S128, .f32⟩
  | .local _ .vmem, ⟨4, _⟩ => ⟨S512x128, .f32⟩
  | .local _ .vmem, ⟨5, _⟩ => ⟨S512x128, .f32⟩
  | _, _ => ⟨S32x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![512], ![false]⟩

@[reducible] def k0_t1_loop : Scf.Loop 32 :=
  let c0_i32 : BitVec 32 := 0#32
  let c25_i32 : BitVec 32 := 25#32
  let v3 : BitVec 32 := Scalar.addi c0_i32 c25_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32 : BitVec 32 := 1280#32
  let v10 : BitVec 32 := Scalar.muli arg5 c1280_i32
  v10
def k0_off1 (k0_t1 : Fin k0_t1_loop.trips) : Fin 2 → Nat :=
  let c0_5 : Index := 0#32
  let c0_i32 : BitVec 32 := 0#32
  let c1_i32 : BitVec 32 := 1#32
  let arg5 : BitVec 32 := Scf.iv c0_i32 c1_i32 k0_t1
  let c1280_i32 : BitVec 32 := 1280#32
  let v10 : BitVec 32 := Scalar.muli arg5 c1280_i32
  let v11 : BitVec 32 := v10
  let v12 : Index := Scalar.indexCast v11
  ![0, v12.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x8192_S262144x1 : S32x8192.ShapeCasts S262144x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S128x1280 : 0 < S128x1280.numel
  shapeCasts_S128x1280_S128x1280 : S128x1280.ShapeCasts S128x1280
  iota_S512x1280_d1_w32 : S512x1280.Iotas .tc 32 [1]
  broadcasts_S512x1_S512x1280 : S512x1.Broadcasts S512x1280
  natLt_1_32 : 1 < 32
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S262144x128_S32x8192x128 : S262144x128.ShapeCasts S32x8192x128
  dot_S512x1280_S128x1280_S512x128_1_1_0_0_n_n_wf : DotDims.WF S512x1280 S128x1280 S512x128 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x1280.size a ≤ S128x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S262144x1.size a
  hwx0_0 : ∀ i : grid0.Coords, EltTy.bits .i32 = 32 ∨ (Rect.block (s := S262144x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32000.size a ≤ S128x32000.size a
  hwx0_1 : ∀ i : grid0.Coords, EltTy.bits .bf16 = 32 ∨ (Rect.block (s := S128x32000) S128x32000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S262144x128.size a
  hwx0_3 : ∀ i : grid0.Coords, EltTy.bits .f32 = 32 ∨ (Rect.block (s := S262144x128) S512x128.size (cc0_transform_3 i) (hinb0_3 i)).WholeWords (EltTy.packing .f32)

variable [Facts₀]

def dot_S512x1280_S128x1280_S512x128_1_1_0_0_n_n : DotDims S512x1280 S128x1280 S512x128 where
  lhsContracting := [1]
  rhsContracting := [1]
  lhsNonContracting := [0]
  rhsNonContracting := [0]
  lhsBatch := []
  rhsBatch := []
  wf := dot_S512x1280_S128x1280_S512x128_1_1_0_0_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x32000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192 : Shape := ⟨2, ![32, 8192]⟩
abbrev S128x32000 : Shape := ⟨2, ![128, 32000]⟩
abbrev S128 : Shape := ⟨1, ![128]⟩
abbrev S32000x128 : Shape := ⟨2, ![32000, 128]⟩
abbrev S_ : Shape := ⟨0, ![]⟩
abbrev S32x8192x1 : Shape := ⟨3, ![32, 8192, 1]⟩
abbrev S1 : Shape := ⟨1, ![1]⟩
abbrev S1x1x1 : Shape := ⟨3, ![1, 1, 1]⟩
abbrev S32x8192x128 : Shape := ⟨3, ![32, 8192, 128]⟩
abbrev S1x1x128 : Shape := ⟨3, ![1, 1, 128]⟩

abbrev nBuf : Space → Nat
  | .hbm => 30
  | .vmem => 0
  | .smem => 0
  | _ => 0

abbrev bufTy : (tb : Table) → Fin (tcTables nBuf tb) → BufTy
  | .hbm, ⟨0, _⟩ => ⟨S32x8192, .i32⟩
  | .hbm, ⟨1, _⟩ => ⟨S128x32000, .f32⟩
  | .hbm, ⟨2, _⟩ => ⟨S128, .f32⟩
  | .hbm, ⟨3, _⟩ => ⟨S32000x128, .f32⟩
  | .hbm, ⟨4, _⟩ => ⟨S_, .i32⟩
  | .hbm, ⟨5, _⟩ => ⟨S32x8192, .i32⟩
  | .hbm, ⟨6, _⟩ => ⟨S32x8192, .i1⟩
  | .hbm, ⟨7, _⟩ => ⟨S_, .i32⟩
  | .hbm, ⟨8, _⟩ => ⟨S32x8192, .i32⟩
  | .hbm, ⟨9, _⟩ => ⟨S32x8192, .i32⟩
  | .hbm, ⟨10, _⟩ => ⟨S32x8192, .i32⟩
  | .hbm, ⟨11, _⟩ => ⟨S32x8192x1, .i32⟩
  | .hbm, ⟨12, _⟩ => ⟨S1, .i32⟩
  | .hbm, ⟨13, _⟩ => ⟨S_, .i32⟩
  | .hbm, ⟨14, _⟩ => ⟨S32x8192x1, .i32⟩
  | .hbm, ⟨15, _⟩ => ⟨S32x8192x1, .i1⟩
  | .hbm, ⟨16, _⟩ => ⟨S1x1x1, .i32⟩
  | .hbm, ⟨17, _⟩ => ⟨S32x8192x1, .i32⟩
  | .hbm, ⟨18, _⟩ => ⟨S32x8192x1, .i1⟩
  | .hbm, ⟨19, _⟩ => ⟨S32x8192x1, .i1⟩
  | .hbm, ⟨20, _⟩ => ⟨S_, .i1⟩
  | .hbm, ⟨21, _⟩ => ⟨S32x8192, .i1⟩
  | .hbm, ⟨22, _⟩ => ⟨S32x8192x128, .f32⟩
  | .hbm, ⟨23, _⟩ => ⟨S32x8192x128, .i1⟩
  | .hbm, ⟨24, _⟩ => ⟨S_, .f32⟩
  | .hbm, ⟨25, _⟩ => ⟨S32x8192x128, .f32⟩
  | .hbm, ⟨26, _⟩ => ⟨S32x8192x128, .f32⟩
  | .hbm, ⟨27, _⟩ => ⟨S1x1x128, .f32⟩
  | .hbm, ⟨28, _⟩ => ⟨S32x8192x128, .f32⟩
  | .hbm, ⟨29, _⟩ => ⟨S32x8192x128, .f32⟩
  | _, _ => ⟨S32x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  transposes_S128x32000_S32000x128_1_0 : S128x32000.Transposes [1, 0] S32000x128
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  bcast_S_S32x8192x1 : S_.BroadcastsInDim S32x8192x1 (![] : Fin 0 → Fin S32x8192x1.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x8192_d2 : S32x8192x1.ReducesTo [2] S32x8192
  h_S_ : 0 < S_.numel
  bcast_S32x8192_S32x8192x128_0_1 : S32x8192.BroadcastsInDim S32x8192x128 (![0, 1] : Fin 2 → Fin S32x8192x128.rank)
  bcast_S_S32x8192x128 : S_.BroadcastsInDim S32x8192x128 (![] : Fin 0 → Fin S32x8192x128.rank)
  bcast_S128_S1x1x128_2 : S128.BroadcastsInDim S1x1x128 (![2] : Fin 1 → Fin S1x1x128.rank)
  bcast_S1x1x128_S32x8192x128_0_1_2 : S1x1x128.BroadcastsInDim S32x8192x128 (![0, 1, 2] : Fin 3 → Fin S32x8192x128.rank)
  gather_S32000x128_S32x8192x1_S32x8192x128_2_0_n_n_0_2_1128_wf : GatherDims.WF S32000x128 S32x8192x1 S32x8192x128 [2] [0] [] [0] [] 2 ![1, 128]

variable [Facts₀]

def gather_S32000x128_S32x8192x1_S32x8192x128_2_0_n_n_0_2_1128 : GatherDims S32000x128 S32x8192x1 S32x8192x128 where
  offsetDims := [2]
  collapsedSliceDims := [0]
  operandBatchingDims := []
  startIndicesBatchingDims := []
  startIndexMap := [0]
  indexVectorDim := 2
  sliceSizes := ![1, 128]
  wf := gather_S32000x128_S32x8192x1_S32x8192x128_2_0_n_n_0_2_1128_wf

class Facts : Prop extends Facts₀ where

variable [Facts]
-- ==== Proof.Spec.lean ====
/-
  The embedding both programs compute, stated once over literal shapes.

  A token is a 32-bit word. Read unsigned, it either names one of the table's 32000 columns or it does not; the
  column it selects is the table's column when it does and the zero column when it does not. The result at
  position (p, q) and feature d is the selected column's entry d plus the bias' entry d.
-/
import Idealize.ShloMosaic.PureOps.Ideal
import Idealize.ShloMosaic.Lib.ValueIdx

noncomputable section

namespace Cert.Proof.Embed

open Idealize.ShloMosaic Idealize.ShloMosaic.ValueIdx

/-- Entry `d` of the column of the 128 × 32000 table `W` that the word `t` selects: `W (d, t)` when `t`, read
    unsigned, is below 32000, and `0` otherwise. -/
def column (W : (⟨2, ![128, 32000]⟩ : Shape).Idx → EReal) (t : BitVec 32) (d : Fin 128) : EReal :=
  if h : t.toNat < 32000 then W (ix2 d ⟨t.toNat, h⟩) else 0

/-- The embedding at position `(p, q)` and feature `d`. -/
def embedAt (tok : IVec ⟨2, ![32, 8192]⟩ 32) (W : (⟨2, ![128, 32000]⟩ : Shape).Idx → EReal)
    (b : (⟨1, ![128]⟩ : Shape).Idx → EReal) (p : Fin 32) (q : Fin 8192) (d : Fin 128) : EReal :=
  column W (tok (ix2 p q)) d + b (ix1 d)

/-- The embedding as one array of shape 32 × 8192 × 128. -/
def embed (tok : IVec ⟨2, ![32, 8192]⟩ 32) (W : (⟨2, ![128, 32000]⟩ : Shape).Idx → EReal)
    (b : (⟨1, ![128]⟩ : Shape).Idx → EReal) : (⟨3, ![32, 8192, 128]⟩ : Shape).Idx → EReal :=
  fun i => embedAt tok W b (i 0) (i 1) (i 2)

theorem embed_apply (tok : IVec ⟨2, ![32, 8192]⟩ 32) (W : (⟨2, ![128, 32000]⟩ : Shape).Idx → EReal)
    (b : (⟨1, ![128]⟩ : Shape).Idx → EReal) (p : Fin 32) (q : Fin 8192) (d : Fin 128) :
    embed tok W b (ix3 p q d) = column W (tok (ix2 p q)) d + b (ix1 d) := rfl

/-- A column selected by a word in range is the table's column. -/
theorem column_of_lt (W : (⟨2, ![128, 32000]⟩ : Shape).Idx → EReal) (t : BitVec 32) (d : Fin 128) (h : t.toNat < 32000) :
    column W t d = W (ix2 d ⟨t.toNat, h⟩) := dif_pos h

end Cert.Proof.Embed

end
-- ==== Proof.BodyValue.lean ====
/-
  What one grid point's body leaves in the output tile.

  The body keeps a 512 × 128 accumulator, zero at first. Trip k of its loop compares every row's token with the
  column numbers 1280·k … 1280·k + 1279, turns the comparison into a row of zeros and ones, multiplies that row
  with the table's columns of the same numbers and adds the product to the accumulator. A row of zeros and ones with
  at most one 1 picks out at most one column: the product is the table's column at the token when the token lies in
  the trip's range and zero when it does not. After the 25 trips the ranges have covered [0, 32000), so the accumulator
  holds the column the token selects; the bias is added and the tile stored whole.
-/
import proofs.«430174_j7739531067774_1_alg».proof.Proof.Gen.KernelIdeal.Frame
import proofs.«430174_j7739531067774_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.WholeRead

set_option maxRecDepth 16384

noncomputable section

namespace Cert.KernelIdeal.EmbedBody

open Idealize.ShloMosaic Idealize.ShloMosaic.ValueIdx Idealize.ShloMosaic.Tactic Cert.KernelIdeal Cert.KernelIdeal.Gen

/-! ## The run's pieces, read back as payloads -/

section AnyInstance

variable {F : FTy → Type} [FloatOps F]

theorem zeros2 : (![0, 0] : Fin 2 → Nat) = fun _ => 0 := funext fun a => by fin_cases a <;> rfl
theorem zeros1 : (![0] : Fin 1 → Nat) = fun _ => 0 := funext fun a => by fin_cases a <;> rfl

/-- One trip of the loop yields the trip's payload of the carried value and of the table's 1280 columns the trip
    loads. -/
theorem trip_eq (𝒱 : Variants) (c : Dev nD) (bd : Option 𝒱.V) (i : grid0.Coords) (arg1 : Memref sig .tc .vmem S512x1 .i32) (harg1 : arg1.IsWhole)
    (arg2 : Memref sig .tc .vmem S128x32000 .bf16) (harg2 : arg2.IsWhole) (arg3 : Memref sig .tc .vmem S128 .f32) (harg3 : arg3.IsWhole)
    (arg4 : Memref sig .tc .vmem S512x128 .f32) (harg4 : arg4.IsWhole)
    (v0 : Vec F S512x1 .i32) (X : BufTy.Contents (Elt F) arg2.view.ty) (k : Fin k0_t1_loop.trips) (acc : FVec F S512x128 .f32) :
    tripR_k0_t1 (F := F) 𝒱 c bd i arg1 harg1 arg2 harg2 arg3 harg3 arg4 harg4 v0 X k acc
      = k0_pay2 v0 k acc (View.readAt (Elt F) arg2.view (Rect.unit (s := S128x32000) (k0_off1 k) S128x1280.size (k0_off1_inb k)).toLoadRect X) := by
  unfold tripR_k0_t1 trip_k0_t1
  rfl

/-- The tile the body leaves: the last payload of the carried value after the loop's last trip and of the bias. -/
theorem out_eq_payload (c : Dev nD) (i : grid0.Coords) (arg1 : Memref sig .tc .vmem S512x1 .i32) (harg1 : arg1.IsWhole)
    (arg2 : Memref sig .tc .vmem S128x32000 .bf16) (harg2 : arg2.IsWhole) (arg3 : Memref sig .tc .vmem S128 .f32) (harg3 : arg3.IsWhole)
    (arg4 : Memref sig .tc .vmem S512x128 .f32) (harg4 : arg4.IsWhole)
    (x0 : Vec F S512x1 .i32) (x1 : Vec F S128x32000 .bf16) (x2 : Vec F S128 .f32) :
    out0_A_3 (F := F) c i arg1 harg1 arg2 harg2 arg3 harg3 arg4 harg4 x0 x1 x2
      = k0_pay3 (st_k0_t1 (F := F) Variants.none c none i arg1 harg1 arg2 harg2 arg3 harg3 arg4 harg4 x0 (harg2.unread x1) k0_pay1
          k0_t1_loop.trips) x2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero zeros2]
  simp only [View.readAt_eq_ld, harg1.read_unread, harg3.read_unread, View.ld_unit_zero (S := S512x1) zeros2,
    View.ld_unit_zero (S := S128) zeros1]

end AnyInstance

/-! ## The product of a row of zeros and ones with the table's columns -/

/-- The contraction of the trip's matrix product. -/
abbrev dots := dot_S512x1280_S128x1280_S512x128_1_1_0_0_n_n

theorem lhs_dots_0 (j : S512x128.Idx) (k : dot_S512x1280_S128x1280_S512x128_1_1_0_0_n_n.contr.Idx) :
    (dot_S512x1280_S128x1280_S512x128_1_1_0_0_n_n.lhsIdx j k 0).val = (j 0).val := by
  unfold DotDims.lhsIdx
  rw [dif_neg (show ¬(0 : Fin S512x1280.rank) ∈ dot_S512x1280_S128x1280_S512x128_1_1_0_0_n_n.lhsBatch by decide),
    dif_pos (show (0 : Fin S512x1280.rank) ∈ dot_S512x1280_S128x1280_S512x128_1_1_0_0_n_n.lhsNonContracting by decide)]
  rfl

theorem lhs_dots_1 (j : S512x128.Idx) (k : dot_S512x1280_S128x1280_S512x128_1_1_0_0_n_n.contr.Idx) :
    (dot_S512x1280_S128x1280_S512x128_1_1_0_0_n_n.lhsIdx j k 1).val = (k ⟨0, by decide⟩).val :=
  dot_S512x1280_S128x1280_S512x128_1_1_0_0_n_n.lhsIdx_val_of_single rfl j k

theorem rhs_dots_0 (j : S512x128.Idx) (k : dot_S512x1280_S128x1280_S512x128_1_1_0_0_n_n.contr.Idx) :
    (dot_S512x1280_S128x1280_S512x128_1_1_0_0_n_n.rhsIdx j k 0).val = (j 1).val := by
  unfold DotDims.rhsIdx
  rw [dif_neg (show ¬(0 : Fin S128x1280.rank) ∈ dot_S512x1280_S128x1280_S512x128_1_1_0_0_n_n.rhsBatch by decide),
    dif_pos (show (0 : Fin S128x1280.rank) ∈ dot_S512x1280_S128x1280_S512x128_1_1_0_0_n_n.rhsNonContracting by decide)]
  rfl

theorem rhs_dots_1 (j : S512x128.Idx) (k : dot_S512x1280_S128x1280_S512x128_1_1_0_0_n_n.contr.Idx) :
    (dot_S512x1280_S128x1280_S512x128_1_1_0_0_n_n.rhsIdx j k 1).val = (k ⟨0, by decide⟩).val :=
  dot_S512x1280_S128x1280_S512x128_1_1_0_0_n_n.rhsIdx_val_of_single rfl j k

/-- The trip's matrix product into a zero accumulator, at row `r` and feature `d`: the sum over the trip's 1280
    columns of the left factor's row entry times the right factor's row entry. -/
theorem product_apply (L : FVec Ideal S512x1280 .bf16) (R : FVec Ideal S128x1280 .bf16) (r : Fin 512) (d : Fin 128) :
    matmul (F := Ideal) dot_S512x1280_S128x1280_S512x128_1_1_0_0_n_n none L R (constant S512x128 .f32 0x00000000#32) (ix2 r d)
      = ∑ c : Fin 1280, L (ix2 r c) * R (ix2 d c) := by
  refine (Ideal.matmul_constant_zero_apply dot_S512x1280_S128x1280_S512x128_1_1_0_0_n_n none L R (ix2 r d)).trans ?_
  rw [← Equiv.sum_comp (contrEquiv1 dot_S512x1280_S128x1280_S512x128_1_1_0_0_n_n 1280 rfl rfl).symm]
  refine Finset.sum_congr rfl fun c _ => ?_
  have hk := contrEquiv1_symm_val dot_S512x1280_S128x1280_S512x128_1_1_0_0_n_n 1280 rfl rfl c
  congr 1
  · congr 1
    funext a
    refine Fin.ext ?_
    match a with
    | ⟨0, _⟩ => exact lhs_dots_0 _ _
    | ⟨1, _⟩ => exact (lhs_dots_1 _ _).trans hk
  · congr 1
    funext a
    refine Fin.ext ?_
    match a with
    | ⟨0, _⟩ => exact rhs_dots_0 _ _
    | ⟨1, _⟩ => exact (rhs_dots_1 _ _).trans hk

/-! ## The row of zeros and ones -/

/-- `1` where the word `t`, read unsigned, is the number `n`, and `0` elsewhere. -/
def hot (t : BitVec 32) (n : ℕ) : EReal := if t.toNat = n then 1 else 0

theorem eq_ofNat_iff (t : BitVec 32) (n : ℕ) (hn : n < 2 ^ 32) : t = BitVec.ofNat 32 n ↔ t.toNat = n := by
  constructor
  · intro h; rw [h, BitVec.toNat_ofNat]; exact Nat.mod_eq_of_lt hn
  · intro h; apply BitVec.eq_of_toNat_eq; rw [BitVec.toNat_ofNat, h]; exact (Nat.mod_eq_of_lt hn).symm

/-- The comparison of a word with a number below 2³², widened and converted, is that indicator. -/
theorem hot_word (t : BitVec 32) (n : ℕ) (hn : n < 2 ^ 32) :
    FloatOps.sitofp (F := Ideal) .f32 ((IntOp.cmpi .eq t (BitVec.ofNat 32 n)).setWidth 32) = hot t n := by
  show (((((IntOp.cmpi .eq t (BitVec.ofNat 32 n)).setWidth 32).toInt : ℝ)) : EReal) = hot t n
  unfold hot IntOp.cmpi
  by_cases h : t.toNat = n
  · rw [if_pos h, (eq_ofNat_iff t n hn).mpr h]
    simp
  · rw [if_neg h]
    have hne : (t == BitVec.ofNat 32 n) = false := by
      rw [beq_eq_false_iff_ne]; exact fun e => h ((eq_ofNat_iff t n hn).mp e)
    simp only [hne]
    simp

/-- Trip `k`'s column numbers: the lane number `c` plus the trip's offset is the number 1280·k + c, no wrapping. -/
theorem col_word (k : ℕ) (hk : k < 25) (c : ℕ) (hc : c < 1280) :
    IntOp.addi (BitVec.ofNat 32 (0 * 1280 + c)) (Scalar.muli (Scf.iv 0#32 1#32 k) 1280#32) = BitVec.ofNat 32 (1280 * k + c) := by
  unfold IntOp.addi Scalar.muli IntOp.muli Scf.iv
  apply BitVec.eq_of_toNat_eq
  simp only [BitVec.toNat_add, BitVec.toNat_mul, BitVec.toNat_ofNat]
  omega

/-- The trip's row of zeros and ones, as the trip's payload spells it. -/
def onehot {F : FTy → Type} [FloatOps F] (v0 : Vec F S512x1 .i32) (k : Fin k0_t1_loop.trips) : FVec F S512x1280 .bf16 :=
  truncf .bf16 (sitofp .f32 (extui 32 (cmpi .eq
      (broadcastTo S512x1280 (shapeCast S512x1 v0 shapeCasts_S512x1_S512x1 : IVec S512x1 32) broadcasts_S512x1_S512x1280)
      (addi (iota .tc S512x1280 32 [1] iota_S512x1280_d1_w32) (broadcast S512x1280 (Scalar.muli (Scf.iv 0#32 1#32 k) 1280#32))))
    natLt_1_32)) bitsLt_bf16_f32

/-- The trip's payload is the carried value plus the product of that row with the loaded columns. -/
theorem pay2_eq {F : FTy → Type} [FloatOps F] (v0 : Vec F S512x1 .i32) (k : Fin k0_t1_loop.trips) (acc : FVec F S512x128 .f32) (v13 : Vec F S128x1280 .bf16) :
    k0_pay2 v0 k acc v13 = addf acc (matmul dot_S512x1280_S128x1280_S512x128_1_1_0_0_n_n none (onehot v0 k)
      (shapeCast S128x1280 v13 shapeCasts_S128x1280_S128x1280) (constant S512x128 .f32 0x00000000#32)) := rfl

theorem trips_eq : k0_t1_loop.trips = 25 := by decide

/-- Entry `(r, c)` of the row of zeros and ones: is row `r`'s token the number 1280·k + c? -/
theorem onehot_apply (v0 : Vec Ideal S512x1 .i32) (k : Fin k0_t1_loop.trips) (r : Fin 512) (c : Fin 1280) :
    onehot (F := Ideal) v0 k (ix2 r c) = hot (v0 (ix2 r (0 : Fin 1))) (1280 * k.val + c.val) := by
  have hk : k.val < 25 := trips_eq ▸ k.isLt
  have hb : broadcastTo S512x1280 (shapeCast S512x1 v0 shapeCasts_S512x1_S512x1 : IVec S512x1 32) broadcasts_S512x1_S512x1280 (ix2 r c)
      = v0 (ix2 r (0 : Fin 1)) := by
    rw [shapeCast_self]
    exact broadcastTo_apply (v0 : IVec S512x1 32) _ (ix2 r c) (ix2 r (0 : Fin 1)) (fun a => by
      match a with
      | ⟨0, _⟩ => rfl
      | ⟨1, _⟩ => rfl)
  show FloatOps.sitofp (F := Ideal) .f32 ((IntOp.cmpi .eq
      (broadcastTo S512x1280 (shapeCast S512x1 v0 shapeCasts_S512x1_S512x1 : IVec S512x1 32) broadcasts_S512x1_S512x1280 (ix2 r c))
      (IntOp.addi (BitVec.ofNat 32 (0 * 1280 + c.val)) (Scalar.muli (Scf.iv 0#32 1#32 k) 1280#32))).setWidth 32) = _
  rw [hb, col_word k.val hk c.val c.isLt]
  exact hot_word _ _ (by omega)

/-! ## One trip at an entry -/

/-- The columns a trip loads: entry `(d, c)` of the loaded block is the table at `(d, 1280·k + c)`. -/
theorem cols_apply (arg2 : Memref sig .tc .vmem S128x32000 .bf16) (harg2 : arg2.IsWhole) (x1 : Vec Ideal S128x32000 .bf16)
    (k : Fin k0_t1_loop.trips) (d : Fin 128) (c : Fin 1280) (h : 1280 * k.val + c.val < 32000) :
    View.readAt (Elt Ideal) arg2.view (Rect.unit (s := S128x32000) (k0_off1 k) S128x1280.size (k0_off1_inb k)).toLoadRect (harg2.unread x1) (ix2 d c)
      = x1 (ix2 d ⟨1280 * k.val + c.val, h⟩) := by
  refine (harg2.readAt_unread x1 (Rect.unit (s := S128x32000) (k0_off1 k) S128x1280.size (k0_off1_inb k)).toLoadRect (ix2 d c)).trans (congrArg x1 ?_)
  funext a
  refine Fin.ext ?_
  have e := k0_off1_eq k
  match a with
  | ⟨0, _⟩ =>
    show (k0_off1 k) 0 + 1 * d.val = d.val
    rw [e]; simp
  | ⟨1, _⟩ =>
    show (k0_off1 k) 1 + 1 * c.val = 1280 * k.val + c.val
    rw [e]; simp

/-- The trip's payload at row `r` and feature `d`: the carried value plus the sum, over the trip's columns, of the
    indicator "row `r`'s token is this column" times the loaded column's entry `d`. -/
theorem pay2_apply (v0 : Vec Ideal S512x1 .i32) (k : Fin k0_t1_loop.trips) (acc : FVec Ideal S512x128 .f32)
    (v13 : Vec Ideal S128x1280 .bf16) (r : Fin 512) (d : Fin 128) :
    k0_pay2 v0 k acc v13 (ix2 r d)
      = acc (ix2 r d) + ∑ c : Fin 1280, hot (v0 (ix2 r (0 : Fin 1))) (1280 * k.val + c.val) * v13 (ix2 d c) := by
  rw [pay2_eq]
  show acc (ix2 r d) + matmul (F := Ideal) dot_S512x1280_S128x1280_S512x128_1_1_0_0_n_n none (onehot v0 k)
      (shapeCast S128x1280 v13 shapeCasts_S128x1280_S128x1280) (constant S512x128 .f32 0x00000000#32) (ix2 r d) = _
  rw [product_apply]
  refine congrArg (acc (ix2 r d) + ·) (Finset.sum_congr rfl fun c _ => ?_)
  rw [onehot_apply, shapeCast_self]

/-- A row of zeros and ones with its one possible 1 at the token picks out at most one term of a sum over a trip's
    columns: the term at the token if the token lies in the trip's range, nothing otherwise. -/
theorem sum_hot (t : BitVec 32) (k : ℕ) (f : Fin 1280 → EReal) :
    ∑ c : Fin 1280, hot t (1280 * k + c.val) * f c
      = if h : 1280 * k ≤ t.toNat ∧ t.toNat < 1280 * k + 1280 then f ⟨t.toNat - 1280 * k, by omega⟩ else 0 := by
  split
  · rename_i h
    rw [Finset.sum_eq_single (⟨t.toNat - 1280 * k, by omega⟩ : Fin 1280)]
    · unfold hot
      rw [if_pos (by show t.toNat = 1280 * k + (t.toNat - 1280 * k); omega), one_mul]
    · intro c _ hc
      unfold hot
      rw [if_neg (fun e => hc (Fin.ext (by show c.val = t.toNat - 1280 * k; omega))), zero_mul]
    · intro h'; exact absurd (Finset.mem_univ _) h'
  · rename_i h
    refine Finset.sum_eq_zero fun c _ => ?_
    unfold hot
    rw [if_neg (fun e => h (by have := c.isLt; omega)), zero_mul]

/-! ## The carried value before each trip -/

/-- Before trip `k` the accumulator holds, at feature `d` of a row whose token is `t`: the table's entry `(d, t)` if
    `t` is a column number below 1280·k, and zero if not. -/
def partialCol (x1 : S128x32000.Idx → EReal) (t : BitVec 32) (d : Fin 128) (k : ℕ) : EReal :=
  if h : t.toNat < 1280 * k ∧ t.toNat < 32000 then x1 (ix2 d ⟨t.toNat, h.2⟩) else 0

theorem carried_eq (c : Dev nD) (i : grid0.Coords) (arg1 : Memref sig .tc .vmem S512x1 .i32) (harg1 : arg1.IsWhole)
    (arg2 : Memref sig .tc .vmem S128x32000 .bf16) (harg2 : arg2.IsWhole) (arg3 : Memref sig .tc .vmem S128 .f32) (harg3 : arg3.IsWhole)
    (arg4 : Memref sig .tc .vmem S512x128 .f32) (harg4 : arg4.IsWhole)
    (x0 : Vec Ideal S512x1 .i32) (x1 : Vec Ideal S128x32000 .bf16) (r : Fin 512) (d : Fin 128) :
    ∀ k : ℕ, k ≤ 25 →
      st_k0_t1 (F := Ideal) Variants.none c none i arg1 harg1 arg2 harg2 arg3 harg3 arg4 harg4 x0 (harg2.unread x1) k0_pay1 k (ix2 r d)
        = partialCol x1 (x0 (ix2 r (0 : Fin 1))) d k := by
  intro k
  induction k with
  | zero =>
    intro _
    show Ideal.ofBits .f32 0x00000000#32 = _
    rw [Ideal.ofBits_zero_f32]
    unfold partialCol
    rw [dif_neg (by omega)]
  | succ k ih =>
    intro hk
    have hk' : k < k0_t1_loop.trips := by rw [trips_eq]; omega
    have e : st_k0_t1 (F := Ideal) Variants.none c none i arg1 harg1 arg2 harg2 arg3 harg3 arg4 harg4 x0 (harg2.unread x1) k0_pay1 (k + 1)
        = tripR_k0_t1 (F := Ideal) Variants.none c none i arg1 harg1 arg2 harg2 arg3 harg3 arg4 harg4 x0 (harg2.unread x1) ⟨k, hk'⟩
            (st_k0_t1 (F := Ideal) Variants.none c none i arg1 harg1 arg2 harg2 arg3 harg3 arg4 harg4 x0 (harg2.unread x1) k0_pay1 k) :=
      st_k0_t1_succ (F := Ideal) Variants.none c none i arg1 harg1 arg2 harg2 arg3 harg3 arg4 harg4 x0 (harg2.unread x1) k0_pay1 ⟨k, hk'⟩
    rw [e, trip_eq, pay2_apply, ih (by omega)]
    have hs : ∑ c' : Fin 1280, hot (x0 (ix2 r (0 : Fin 1))) (1280 * k + c'.val)
          * View.readAt (Elt Ideal) arg2.view (Rect.unit (s := S128x32000) (k0_off1 ⟨k, hk'⟩) S128x1280.size (k0_off1_inb ⟨k, hk'⟩)).toLoadRect (harg2.unread x1) (ix2 d c')
        = ∑ c' : Fin 1280, hot (x0 (ix2 r (0 : Fin 1))) (1280 * k + c'.val) * x1 (ix2 d ⟨1280 * k + c'.val, by have := c'.isLt; omega⟩) :=
      Finset.sum_congr rfl fun c' _ => by rw [cols_apply arg2 harg2 x1 ⟨k, hk'⟩ d c' (by have := c'.isLt; show 1280 * k + c'.val < 32000; omega)]
    show _ + ∑ c' : Fin 1280, hot (x0 (ix2 r (0 : Fin 1))) (1280 * k + c'.val)
          * View.readAt (Elt Ideal) arg2.view (Rect.unit (s := S128x32000) (k0_off1 ⟨k, hk'⟩) S128x1280.size (k0_off1_inb ⟨k, hk'⟩)).toLoadRect (harg2.unread x1) (ix2 d c') = _
    rw [hs, sum_hot (x0 (ix2 r (0 : Fin 1))) k (fun c' => x1 (ix2 d ⟨1280 * k + c'.val, by have := c'.isLt; omega⟩))]
    unfold partialCol
    by_cases h1 : (x0 (ix2 r (0 : Fin 1))).toNat < 1280 * k
    · rw [dif_pos ⟨h1, by omega⟩, dif_neg (by omega), add_zero, dif_pos ⟨by omega, by omega⟩]
    · by_cases h2 : (x0 (ix2 r (0 : Fin 1))).toNat < 1280 * k + 1280
      · rw [dif_neg (fun h => h1 h.1), dif_pos ⟨by omega, h2⟩, zero_add, dif_pos ⟨by omega, by omega⟩]
        exact congrArg x1 (congrArg (ix2 d) (Fin.ext (by
          show 1280 * k + ((x0 (ix2 r (0 : Fin 1))).toNat - 1280 * k) = (x0 (ix2 r (0 : Fin 1))).toNat
          omega)))
      · rw [dif_neg (fun h => h1 h.1), dif_neg (fun h => h2 h.2), zero_add, dif_neg (fun h => h2 (by omega))]

/-! ## The tile -/

/-- The tile at row `r` and feature `d`: the column the row's token selects, plus the bias. -/
def tileAt (x0 : Vec Ideal S512x1 .i32) (x1 : Vec Ideal S128x32000 .bf16) (x2 : Vec Ideal S128 .f32) (r : Fin 512) (d : Fin 128) : EReal :=
  Cert.Proof.Embed.column x1 (x0 (ix2 r (0 : Fin 1))) d + x2 (ix1 d)

/-- The tile of 512 rows and 128 features computed from the point's token block, the table and the bias. -/
def tile (x0 : Vec Ideal S512x1 .i32) (x1 : Vec Ideal S128x32000 .bf16) (x2 : Vec Ideal S128 .f32) : Vec Ideal S512x128 .f32 :=
  fun y => tileAt x0 x1 x2 (y 0) (y 1)

/-- After the last trip the ranges have covered every column number: the accumulator is the selected column. -/
theorem partialCol_last (x1 : S128x32000.Idx → EReal) (t : BitVec 32) (d : Fin 128) :
    partialCol x1 t d 25 = Cert.Proof.Embed.column x1 t d := by
  unfold partialCol Cert.Proof.Embed.column
  by_cases h : t.toNat < 32000
  · rw [dif_pos ⟨by omega, h⟩, dif_pos h]
  · rw [dif_neg (fun h' => h h'.2), dif_neg h]

/-- What the body's run leaves in the output's staging buffer is that tile. -/
theorem out0_A_3_eq (c : Dev nD) (i : grid0.Coords) (arg1 : Memref sig .tc .vmem S512x1 .i32) (harg1 : arg1.IsWhole)
    (arg2 : Memref sig .tc .vmem S128x32000 .bf16) (harg2 : arg2.IsWhole) (arg3 : Memref sig .tc .vmem S128 .f32) (harg3 : arg3.IsWhole)
    (arg4 : Memref sig .tc .vmem S512x128 .f32) (harg4 : arg4.IsWhole)
    (x0 : Vec Ideal S512x1 .i32) (x1 : Vec Ideal S128x32000 .bf16) (x2 : Vec Ideal S128 .f32) :
    out0_A_3 (F := Ideal) c i arg1 harg1 arg2 harg2 arg3 harg3 arg4 harg4 x0 x1 x2 = tile x0 x1 x2 := by
  rw [out_eq_payload]
  funext y
  obtain ⟨r, d, rfl⟩ : ∃ (r : Fin 512) (d : Fin 128), y = ix2 r d := ⟨y 0, y 1, eq_ix2 y⟩
  show st_k0_t1 (F := Ideal) Variants.none c none i arg1 harg1 arg2 harg2 arg3 harg3 arg4 harg4 x0 (harg2.unread x1) k0_pay1
        k0_t1_loop.trips (ix2 r d)
      + broadcastTo S512x128 (shapeCast S1x128 x2 shapeCasts_S128_S1x128) broadcasts_S1x128_S512x128 (ix2 r d) = tileAt x0 x1 x2 r d
  rw [trips_eq, carried_eq c i arg1 harg1 arg2 harg2 arg3 harg3 arg4 harg4 x0 x1 r d 25 (le_refl _), partialCol_last,
    broadcastTo_1b_ab_apply, shapeCast_a_1a_apply]
  rfl

end Cert.KernelIdeal.EmbedBody

end
-- ==== Proof.KernelValue.lean ====
/-
  The kernel's run with its result named: the result buffer ends at the embedding of the arguments.
-/
import proofs.«430174_j7739531067774_1_alg».proof.Proof.BodyValue
import proofs.«430174_j7739531067774_1_alg».proof.Proof.Spec
import Idealize.ShloMosaic.Lib.Pipeline.Value
import Idealize.ShloMosaic.Lib.StableHlo.Run
import Idealize.ShloMosaic.Lib.ValueIdx

noncomputable section

namespace Cert.KernelIdeal.EmbedValue

open Idealize.ShloMosaic Idealize.ShloMosaic.TcCoe Idealize.ShloMosaic.ValueIdx Idealize.SL.Sem Cert.KernelIdeal Cert.KernelIdeal.Gen
open Idealize.ShloMosaic.Pipeline (Dat)

section Region

variable (m : (ℓ : Loc nD τ sig) → Buf (Elt Ideal) ℓ)

/-! ## The whole array the region writes -/

/-- Row `R` of the flattened token array is the token at position `(R / 8192, R % 8192)`. -/
def tokenAt (tok : IVec S32x8192 32) (R : Fin 262144) : BitVec 32 :=
  tok (ix2 (⟨R.val / 8192, by have := R.isLt; omega⟩ : Fin 32) (⟨R.val % 8192, by omega⟩ : Fin 8192))

/-- Entry `(R, d)` of the region's result: the column row `R`'s token selects, at feature `d`, plus the bias. -/
def rowsAt (tok : IVec S32x8192 32) (W : S128x32000.Idx → EReal) (b : S128.Idx → EReal) (R : Fin 262144) (d : Fin 128) : EReal :=
  Cert.Proof.Embed.column W (tokenAt tok R) d + b (ix1 d)

/-- The region's result as one array of 262144 rows and 128 features. -/
def rows (tok : IVec S32x8192 32) (W : S128x32000.Idx → EReal) (b : S128.Idx → EReal) : S262144x128.Idx → EReal :=
  fun i => rowsAt tok W b (i 0) (i 1)

/-! ## The arrays as the region finds them -/

/-- The flattened token array is the reshape of the tokens. -/
theorem entry_tokens (c : Dev nD) :
    (V m c main_v0 : S262144x1.Idx → BitVec 32)
      = shapeCast S262144x1 (m ((c.tc : Thread nD τ).loc main_arg0)) shapeCasts_S32x8192_S262144x1 := by
  show StableHlo.after hostOps0 (fun b => m (c, b)) (Proc.devRef .tc main_v0) = _
  after_results
  rfl

/-- The converted table is the table: a change of float format is the identity on the extended reals. -/
theorem entry_table (c : Dev nD) :
    (V m c main_v1 : S128x32000.Idx → EReal) = m ((c.tc : Thread nD τ).loc main_arg1) := by
  show StableHlo.after hostOps0 (fun b => m (c, b)) (Proc.devRef .tc main_v1) = _
  after_results
  rfl

end Region

section Blocks

variable (m : (ℓ : Loc nD τ sig) → Buf (Elt Ideal) ℓ)

/-! ## The input blocks at a grid point -/

/-- The printed index maps, decided once over the grid: the token window and the output window are at block
    `(t, 0)`, the table's and the bias' one block is at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The flattened token array read at row `R`: the reshape keeps the row-major position. -/
theorem flat_tokens (tok : IVec S32x8192 32) (j : S262144x1.Idx) (R : Fin 262144) (hj : (j 0).val = R.val) :
    shapeCast S262144x1 tok shapeCasts_S32x8192_S262144x1 j = tokenAt tok R := by
  unfold tokenAt
  refine shapeCast_apply tok _ j _ ?_
  rw [Shape.rowMajor_val_two, Shape.rowMajor_val_two]
  show R.val / 8192 * 8192 + R.val % 8192 = (j 0).val * 1 + (j 1).val
  have h1 : (j 1).val < 1 := (j 1).isLt
  omega

/-- The token window's block at point `t`, row `r`, is the token of row `512 t + r`. -/
theorem tokens_block (c : Dev nD) (t : Fin cfg0.N) (y : S512x1.Idx) (R : Fin 262144) (hR : R.val = 512 * t.val + (y 0).val) :
    (iblk m c 0 t : Vec Ideal S512x1 .i32) y = tokenAt (m ((c.tc : Thread nD τ).loc main_arg0)) R := by
  obtain ⟨e0, e1, -⟩ := idx_facts t
  unfold iblk
  rw [View.read_apply]
  refine (congrFun (entry_tokens m c) (((cfg0.win 0).blk t).view.emb y)).trans ?_
  refine flat_tokens _ _ R ?_
  show win0_0.index t (0 : Fin 2) * 512 + 1 * (y 0).val = R.val
  omega

/-- The table window's one block is the table. -/
theorem table_block (c : Dev nD) (t : Fin cfg0.N) :
    (iblk m c 1 t : Vec Ideal S128x32000 .bf16) = m ((c.tc : Thread nD τ).loc main_arg1) := by
  obtain ⟨-, -, e0, e1, -⟩ := idx_facts t
  funext y
  unfold iblk
  rw [View.read_apply]
  refine (congrFun (entry_table m c) (((cfg0.win 1).blk t).view.emb y)).trans ?_
  refine congrArg (m ((c.tc : Thread nD τ).loc main_arg1)) (funext fun a => Fin.ext ?_)
  match a with
  | ⟨0, _⟩ => show win0_1.index t (0 : Fin 2) * 128 + 1 * (y 0).val = (y 0).val; omega
  | ⟨1, _⟩ => show win0_1.index t (1 : Fin 2) * 32000 + 1 * (y 1).val = (y 1).val; omega

/-- The bias window's one block is the bias. -/
theorem bias_block (c : Dev nD) (t : Fin cfg0.N) :
    (iblk m c 2 t : Vec Ideal S128 .f32) = m ((c.tc : Thread nD τ).loc main_arg2) := by
  obtain ⟨-, -, -, -, e0, -⟩ := idx_facts t
  funext y
  unfold iblk
  rw [View.read_apply]
  refine (congrFun (V_main_arg2 m c) (((cfg0.win 2).blk t).view.emb y)).trans ?_
  refine congrArg (m ((c.tc : Thread nD τ).loc main_arg2)) (funext fun a => Fin.ext ?_)
  match a with
  | ⟨0, _⟩ => show win0_2.index t (0 : Fin 1) * 128 + 1 * (y 0).val = (y 0).val; omega

end Blocks

section Array

variable (m : (ℓ : Loc nD τ sig) → Buf (Elt Ideal) ℓ)

/-! ## What a grid point writes back, and the array after the region -/

/-- The tile computed from the token rows `512 t … 512 t + 511`, the table and the bias is rows
    `512 t … 512 t + 511` of `rows`. -/
theorem point_rows (tok : IVec S32x8192 32) (W : S128x32000.Idx → EReal) (b : S128.Idx → EReal) (t : ℕ)
    (x0 : Vec Ideal S512x1 .i32) (x1 : Vec Ideal S128x32000 .bf16) (x2 : Vec Ideal S128 .f32)
    (h0 : ∀ (y : S512x1.Idx) (R : Fin 262144), R.val = 512 * t + (y 0).val → x0 y = tokenAt tok R)
    (h1 : x1 = W) (h2 : x2 = b)
    (y : S512x128.Idx) (i : S262144x128.Idx) (hi0 : (i 0).val = 512 * t + (y 0).val) (hi1 : (i 1).val = (y 1).val) :
    EmbedBody.tile x0 x1 x2 y = rows tok W b i := by
  subst h1 h2
  have hd : (y 1 : Fin 128) = i 1 := Fin.ext hi1.symm
  show EmbedBody.tileAt x0 x1 x2 (y 0) (y 1) = rowsAt tok x1 x2 (i 0) (i 1)
  unfold EmbedBody.tileAt rowsAt
  rw [h0 (ix2 (y 0) (0 : Fin 1)) (i 0) hi0, hd]

/-- What point `t` writes back is block `t` of `rows` of the arguments. -/
theorem flushed_eq (c : Dev nD) (t : Fin cfg0.N) :
    (dats m 0 c).flushed 3 t = ((cfg0.win 3).blk t).view.read (Elt Ideal)
      (rows (m ((c.tc : Thread nD τ).loc main_arg0)) (m ((c.tc : Thread nD τ).loc main_arg1)) (m ((c.tc : Thread nD τ).loc main_arg2))) := by
  obtain ⟨-, -, -, -, -, e0, e1⟩ := idx_facts t
  show (cfg0.win 3).cut (grid0.coords t) ((dats m 0 c).after 3 t) = _
  rw [after0_3]
  unfold outsAt0
  refine funext fun (y : S512x128.Idx) => ?_
  rw [View.read_apply]
  refine (congrFun (EmbedBody.out0_A_3_eq c (grid0.coords t) (ms0_0 t) (hs0_0 t) (ms0_1 t) (hs0_1 t) (ms0_2 t) (hs0_2 t) (ms0_3 t) (hs0_3 t)
    (iblk m c 0 t) (iblk m c 1 t) (iblk m c 2 t)) y).trans ?_
  exact point_rows (m ((c.tc : Thread nD τ).loc main_arg0)) (m ((c.tc : Thread nD τ).loc main_arg1)) (m ((c.tc : Thread nD τ).loc main_arg2)) t.val
    (iblk m c 0 t) (iblk m c 1 t) (iblk m c 2 t) (fun y R hR => tokens_block m c t y R hR) (table_block m c t) (bias_block m c t)
    y (((cfg0.win 3).blk t).view.emb y)
    (by show win0_3.index t (0 : Fin 2) * 512 + 1 * (y 0).val = 512 * t.val + (y 0).val; omega)
    (by show win0_3.index t (1 : Fin 2) * 128 + 1 * (y 1).val = (y 1).val; omega)

/-- An index of the array is in point `t`'s block iff each coordinate is in the block's range on its axis. -/
theorem mem_blk (t : Fin cfg0.N) (i : S262144x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v2).slice (win0_3.rect t)).set ↔ _
  rw [View.set_slice_whole, Rect.mem_set_unit]
  exact Iff.rfl

/-- Row `R` of the array is in the block of point `R / 512`. -/
theorem cover (i : S262144x128.Idx) :
    ∃ t : Fin cfg0.N, (cfg0.win 3).flush t = true ∧ i ∈ ((cfg0.win 3).blk t).view.set := by
  have hN : cfg0.N = 512 := N_0
  have hi0 : (i 0).val < 262144 := (i 0).isLt
  have hi1 : (i 1).val < 128 := (i 1).isLt
  let t : Fin cfg0.N := ⟨(i 0).val / 512, by rw [hN]; omega⟩
  have ht : t.val = (i 0).val / 512 := rfl
  obtain ⟨-, -, -, -, -, e0, e1⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- The array after the region is `rows` of the arguments. -/
theorem final (c : Dev nD) : (dats m 0 c).arrAt 3 cfg0.N
    = rows (m ((c.tc : Thread nD τ).loc main_arg0)) (m ((c.tc : Thread nD τ).loc main_arg1)) (m ((c.tc : Thread nD τ).loc main_arg2)) :=
  (dats m 0 c).arrAt_eq_of_cover 3 _ (fun t _ => flushed_eq m c t) cover

end Array

section Tail

variable (m : (ℓ : Loc nD τ sig) → Buf (Elt Ideal) ℓ)

/-! ## The reshape after the region, and the run -/

/-- Row `8192 p + q` of the flattened token array is the token at `(p, q)`. -/
theorem tokenAt_row (tok : IVec S32x8192 32) (p : Fin 32) (q : Fin 8192) (R : Fin 262144) (hR : R.val = 8192 * p.val + q.val) :
    tokenAt tok R = tok (ix2 p q) := by
  have hp : p.val < 32 := p.isLt
  have hq : q.val < 8192 := q.isLt
  unfold tokenAt
  refine congrArg tok (funext fun a => ?_)
  match a with
  | ⟨0, _⟩ => exact Fin.ext (by show R.val / 8192 = p.val; omega)
  | ⟨1, _⟩ => exact Fin.ext (by show R.val % 8192 = q.val; omega)

/-- The array of rows, reshaped to 32 × 8192 × 128, is the embedding: position `(p, q)` is row `8192 p + q`. -/
theorem unflatten (tok : IVec S32x8192 32) (W : S128x32000.Idx → EReal) (b : S128.Idx → EReal) :
    shapeCast S32x8192x128 (rows tok W b) shapeCasts_S262144x128_S32x8192x128 = Cert.Proof.Embed.embed tok W b := by
  funext j
  obtain ⟨p, q, d, rfl⟩ : ∃ (p : Fin 32) (q : Fin 8192) (d : Fin 128), j = ix3 p q d := ⟨j 0, j 1, j 2, eq_ix3 j⟩
  have hp : p.val < 32 := p.isLt
  have hq : q.val < 8192 := q.isLt
  refine (shapeCast_apply (rows tok W b) _ (ix3 p q d) (ix2 (⟨8192 * p.val + q.val, by omega⟩ : Fin 262144) d) ?_).trans ?_
  · rw [Shape.rowMajor_val_two, Shape.rowMajor_val_three]
    show (8192 * p.val + q.val) * 128 + d.val = (p.val * 8192 + q.val) * 128 + d.val
    omega
  · show rowsAt tok W b ⟨8192 * p.val + q.val, _⟩ d = Cert.Proof.Embed.embedAt tok W b p q d
    unfold rowsAt Cert.Proof.Embed.embedAt
    rw [tokenAt_row tok p q _ rfl]

/-- The result buffer after the reshape that follows the region is the embedding of the arguments. -/
theorem tail (c : Dev nD) : Pipeline.afterTail₀ cfgs (dats m) 0 (V0 m) [hostOps1] c main_v3
    = Cert.Proof.Embed.embed (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = rows (m ((c.tc : Thread nD τ).loc main_arg0)) (m ((c.tc : Thread nD τ).loc main_arg1)) (m ((c.tc : Thread nD τ).loc main_arg2)) :=
    (Pipeline.withArrays_arr spec0 launch0.win.arr_inj c _ _ 3).trans (final m c)
  rw [hA]
  exact unflatten _ _ _

end Tail

/-- The run of the kernel's program, its result named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.Proof.Embed.embed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v3 (Pipeline.mem_restRefs_of main_v3 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.EmbedValue

end
-- ==== Proof.RefTerm.lean ====
/-
  The reference's result as one pure term of its three arguments: the operations of its entry function in order,
  with the row-take's and the select's bodies written at their call sites.

  The take first brings a negative token into range by adding the table's height, tests the adjusted token against
  [0, 31999], gathers the table's transposed rows at the adjusted tokens, and keeps a gathered row where the test
  holds and a fill word where it fails; the bias, broadcast over positions, is added last.
-/
import proofs.«430174_j7739531067774_1_alg».proof.ReferenceIdeal

noncomputable section

namespace Cert.ReferenceIdeal.Hand

open Idealize.ShloMosaic Cert.ReferenceIdeal
open Cert.ReferenceIdeal.Facts₀

variable {F : FTy → Type} [FloatOps F] [Cert.ReferenceIdeal.Facts]

/-- The token adjusted as the take adjusts it: a negative token has 32000 added. -/
def adjusted (tok : IVec S32x8192 32) : IVec S32x8192 32 :=
  select (cmpi .slt tok (broadcastInDim S32x8192 ![] bcast_S_S32x8192 (constantI S_ 32 0#32)))
    (addi tok (broadcastInDim S32x8192 ![] bcast_S_S32x8192 (constantI S_ 32 32000#32))) tok

/-- The adjusted tokens as a column of start indices. -/
def starts (tok : IVec S32x8192 32) : IVec S32x8192x1 32 :=
  broadcastInDim S32x8192x1 ![0, 1] bcast_S32x8192_S32x8192x1_0_1 (adjusted tok)

/-- Where the adjusted token lies in [0, 31999]. -/
def inRange (tok : IVec S32x8192 32) : IVec S32x8192 1 :=
  Host.reduce IntOp.andi
    (andi (cmpi .sge (starts tok) (broadcastInDim S32x8192x1 ![] bcast_S_S32x8192x1 (constantI S_ 32 0#32)))
      (cmpi .sle (starts tok)
        (broadcastInDim S32x8192x1 ![0, 1, 2] bcast_S1x1x1_S32x8192x1_0_1_2
          (broadcastInDim S1x1x1 ![2] bcast_S1_S1x1x1_2 (constantI S1 32 31999#32)))))
    (constantI S_ 1 1#1) reducesTo_S32x8192x1_S32x8192_d2 h_S_

/-- The take: the transposed table's rows at the adjusted tokens, the fill word where the token is out of range. -/
def taken (tok : IVec S32x8192 32) (W : FVec F S128x32000 .f32) : FVec F S32x8192x128 .f32 :=
  select (broadcastInDim S32x8192x128 ![0, 1] bcast_S32x8192_S32x8192x128_0_1 (inRange tok))
    (Host.gather gather_S32000x128_S32x8192x1_S32x8192x128_2_0_n_n_0_2_1128
      (transpose S32000x128 [1, 0] W transposes_S128x32000_S32000x128_1_0) (starts tok))
    (broadcastInDim S32x8192x128 ![] bcast_S_S32x8192x128 (constant S_ .f32 0x7FC00000#32))

/-- The reference's result. -/
def result (tok : IVec S32x8192 32) (W : FVec F S128x32000 .f32) (b : FVec F S128 .f32) : FVec F S32x8192x128 .f32 :=
  addf (taken tok W)
    (broadcastInDim S32x8192x128 ![0, 1, 2] bcast_S1x1x128_S32x8192x128_0_1_2
      (broadcastInDim S1x1x128 ![2] bcast_S128_S1x1x128_2 b))

end Cert.ReferenceIdeal.Hand

end
-- ==== Proof.RefRun.lean ====
/-
  The reference's run: every weakly fair execution of its entry function terminates with the result buffer at the
  composed term of the arguments and the arguments unchanged.

  With its two callees unfolded at their call sites the entry function is one straight line of twenty-seven
  operations: the transpose of the table, the take's twenty-three (the select of the take's own callee among them),
  the two broadcasts of the bias, and the sum. A straight line run from the launch contents leaves every buffer at the
  fold of the operations' results over those contents. At the result buffer that fold is the composed term; at an
  argument buffer, which no operation writes, it is what was there.
-/
import proofs.«430174_j7739531067774_1_alg».proof.Proof.RefTerm
import proofs.«430174_j7739531067774_1_alg».proof.Proof.Gen.ReferenceIdeal
import Idealize.ShloMosaic.Lib.StableHlo.Run
import Idealize.ShloMosaic.Adequacy
import Idealize.ShloMosaic.Init

noncomputable section

namespace Cert.ReferenceIdeal.Hand

open Idealize.ShloMosaic Idealize.ShloMosaic.TcCoe Idealize.SL.Sem Cert.ReferenceIdeal
open Idealize.ShloMosaic.StableHlo
open Cert.ReferenceIdeal.Facts₀

variable {F : FTy → Type} [FloatOps F]

/-- The entry function's operations in order, the take's and the select's bodies at their call sites: a callee's
    operation is the typed builder over the buffers its call names. -/
abbrev ops : List (HloOp τ sig (Elt F)) :=
  [ unary main_arg1 main_v0 ((transpose S32000x128 [1, 0] · transposes_S128x32000_S32000x128_1_0) : (⟨S128x32000, .f32⟩ : BufTy).Contents (Elt F) → (⟨S32000x128, .f32⟩ : BufTy).Contents (Elt F)),
    TRef.nullary main_call0.c (constantI S_ 32 0#32),
    TRef.unary main_call0.c main_call0.v0 (broadcastInDim S32x8192 ![] bcast_S_S32x8192),
    TRef.binary (.of main_arg0 : TRef sig ⟨S32x8192, .i32⟩) main_call0.v0 main_call0.v1 (cmpi .slt),
    TRef.nullary main_call0.c_0 (constantI S_ 32 32000#32),
    TRef.unary main_call0.c_0 main_call0.v2 (broadcastInDim S32x8192 ![] bcast_S_S32x8192),
    TRef.binary (.of main_arg0 : TRef sig ⟨S32x8192, .i32⟩) main_call0.v2 main_call0.v3 addi,
    TRef.ternary main_call0.v1 main_call0.v3 (.of main_arg0 : TRef sig ⟨S32x8192, .i32⟩) main_call0.call0.v0 select,
    TRef.unary main_call0.call0.v0 main_call0.v5 (broadcastInDim S32x8192x1 ![0, 1] bcast_S32x8192_S32x8192x1_0_1),
    TRef.nullary main_call0.c_1 (constantI S1 32 31999#32),
    TRef.nullary main_call0.c_2 (constantI S_ 32 0#32),
    TRef.unary main_call0.c_2 main_call0.v6 (broadcastInDim S32x8192x1 ![] bcast_S_S32x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S32x8192x1 ![0, 1, 2] bcast_S1x1x1_S32x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x8192x1_S32x8192_d2 h_S_),
    TRef.binary (.of main_v0 : TRef sig ⟨S32000x128, .f32⟩) main_call0.v5 main_call0.v13 (fun x i => Host.gather gather_S32000x128_S32x8192x1_S32x8192x128_2_0_n_n_0_2_1128 x i),
    TRef.unary main_call0.v12 main_call0.v14 (broadcastInDim S32x8192x128 ![0, 1] bcast_S32x8192_S32x8192x128_0_1),
    TRef.nullary main_call0.cst (constant S_ .f32 0x7FC00000#32),
    TRef.unary main_call0.cst main_call0.v15 (broadcastInDim S32x8192x128 ![] bcast_S_S32x8192x128),
    TRef.ternary main_call0.v14 main_call0.v13 main_call0.v15 main_call0.v16 select,
    unary main_arg2 main_v2 (broadcastInDim S1x1x128 ![2] bcast_S128_S1x1x128_2 : (⟨S128, .f32⟩ : BufTy).Contents (Elt F) → (⟨S1x1x128, .f32⟩ : BufTy).Contents (Elt F)),
    unary main_v2 main_v3 (broadcastInDim S32x8192x128 ![0, 1, 2] bcast_S1x1x128_S32x8192x128_0_1_2 : (⟨S1x1x128, .f32⟩ : BufTy).Contents (Elt F) → (⟨S32x8192x128, .f32⟩ : BufTy).Contents (Elt F)),
    binary main_v1 main_v3 main_v4 (addf : (⟨S32x8192x128, .f32⟩ : BufTy).Contents (Elt F) → (⟨S32x8192x128, .f32⟩ : BufTy).Contents (Elt F) → (⟨S32x8192x128, .f32⟩ : BufTy).Contents (Elt F)) ]

-- twenty-seven binds re-associated
set_option maxRecDepth 1024 in
/-- The entry function is that straight line: the callees unfolded at their calls, both sides are one chain of
    steps once sequencing is re-associated. -/
theorem main_eq (c : Dev nD) : main (F := F) c = seq ops := by
  simp only [main, fn_take.body, fn_where.body, seq, bind_assoc, pure_bind]

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation touches buffers of the device's own memory only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

attribute [local irreducible] Host.reduce Host.gather in
/-- The fold at the result buffer is the composed term: each operation's result is its function's value at its own
    buffer and what was there at any other, and a typed builder's transports are the identity at these buffers. -/
theorem out_eq (V : Valuation τ sig (Elt F)) :
    after ops V (main_v4 : DevRef τ sig)
      = result (F := F) (V (main_arg0 : DevRef τ sig)) (V (main_arg1 : DevRef τ sig)) (V (main_arg2 : DevRef τ sig)) := by
  after_results
  simp only [TRef.ofBuf, TRef.toBuf, cast_eq, result, taken, inRange, starts, adjusted]

/-- No operation writes the token buffer. -/
theorem arg0_eq (V : Valuation τ sig (Elt F)) :
    after ops V (main_arg0 : DevRef τ sig) = V (main_arg0 : DevRef τ sig) := by
  after_results

/-- No operation writes the table's buffer. -/
theorem arg1_eq (V : Valuation τ sig (Elt F)) :
    after ops V (main_arg1 : DevRef τ sig) = V (main_arg1 : DevRef τ sig) := by
  after_results

/-- No operation writes the bias' buffer. -/
theorem arg2_eq (V : Valuation τ sig (Elt F)) :
    after ops V (main_arg2 : DevRef τ sig) = V (main_arg2 : DevRef τ sig) := by
  after_results

/-- The run of the reference, its result named. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v4)
          = result (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono
    (fun _ h c => ⟨(h c main_v4).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Hand

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.RefValue.lean ====
/-
  The reference's result, read at an index, is the embedding — for tokens that name a column of the table.

  Read at position (p, q) and feature d, with t the token at (p, q) and t below 32000 read unsigned:
  the adjustment tests t < 0 signed, which fails, so the adjusted token is t; the range test
  0 ≤ t ≤ 31999 signed holds, so its and-reduction over the unit axis is 1 and the select keeps the gathered
  value; the gather reads the transposed table at row t (the start word read signed and clamped into
  [0, 31999] is t itself) and column d; the transposed table at (t, d) is the table at (d, t); the bias
  broadcast twice reads the bias at d; and the float addition of the ideal instance is the addition of
  extended reals.
-/
import proofs.«430174_j7739531067774_1_alg».proof.Proof.RefTerm
import proofs.«430174_j7739531067774_1_alg».proof.Proof.Gen.ReferenceIdeal
import proofs.«430174_j7739531067774_1_alg».proof.Proof.Spec
import proofs.«430174_j7739531067774_1_alg».proof.Proof.LibGatherScatter
import Idealize.ShloMosaic.PureOps.Ideal
import Idealize.ShloMosaic.PureOps.Reduce
import Idealize.ShloMosaic.Lib.ValueIdx
import Idealize.ShloMosaic.Lib.Affine
import Idealize.ShloMosaic.Lib.Pipeline.Value

noncomputable section

namespace Cert.ReferenceIdeal.HandValue

open Idealize.ShloMosaic Idealize.ShloMosaic.ValueIdx Cert.ReferenceIdeal
open Cert.ReferenceIdeal.Facts₀

/-! ## Words -/

/-- A word below 32000 reads the same signed and unsigned. -/
theorem toInt_of_lt {t : BitVec 32} (ht : t.toNat < 32000) : t.toInt = (t.toNat : Int) :=
  BitVec.toInt_eq_toNat_of_lt (by omega)

/-! ## An and-reduction of an array of ones -/

/-- A left fold by `and` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    exact foldl_andi_one f l _ (IntOp.andi_eq_one.2 ⟨hi, hl a List.mem_cons_self⟩)
      (fun n hn => hl n (List.mem_cons_of_mem _ hn))

/-- A reduction by `and` from the constant 1 of an array that is 1 everywhere is 1 everywhere. -/
theorem reduce_andi_of_all {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x _ _ rfl (fun n _ => hx n)

/-! ## The row gather at a rank-3 array of start indices -/

/-- Operand `[N, D]`, start indices `[A, B, 1]`, result `[A, B, D]`: axis 0 collapsed and start-indexed, axis 1 an
    offset axis of full width, the index vector on the last axis of the start indices. -/
abbrev gathRows (N A B D : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- THE ROW GATHER AT `(p, q, d)`: the operand at the row the start word `idx (p, q, 0)` names (read signed, clamped
    into `[0, N − 1]`), column `d`. On axis 0 (collapsed, no batching) the operand coordinate is the clamped start; on
    axis 1 (not start-indexed) it is the offset coordinate `d`. -/
theorem gather_gathRows_apply {α : Type} {N A B D w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (p : Fin A) (q : Fin B) (d : Fin D) :
    Host.gather (gathRows N A B D wf) x idx (ix3 p q d)
      = x (ix2 (Cert.Proof.GS.row hN (idx (ix3 p q (0 : Fin 1)))) d) := by
  unfold Host.gather
  congr 1
  funext a
  refine Fin.ext ?_
  match a with
  | ⟨0, _⟩ =>
    show (gathRows N A B D wf).start (ix3 p q d) idx 0 + (gathRows N A B D wf).batchCoord (ix3 p q d) 0
      + (gathRows N A B D wf).offCoord (ix3 p q d) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathRows N A B D wf).startIndexMap from List.mem_singleton.mpr rfl)]
    show min (idx _).toInt.toNat (N - 1) = min (idx (ix3 p q (0 : Fin 1))).toInt.toNat (N - 1)
    congr 3
    congr 1
    funext b
    refine Fin.ext ?_
    match b with
    | ⟨0, _⟩ => rfl
    | ⟨1, _⟩ => rfl
    | ⟨2, _⟩ => rfl
  | ⟨1, _⟩ =>
    show (gathRows N A B D wf).start (ix3 p q d) idx 1 + (gathRows N A B D wf).batchCoord (ix3 p q d) 1
      + (gathRows N A B D wf).offCoord (ix3 p q d) 1 = d.val
    rw [GatherDims.batchCoord_eq_zero _ _ _ List.not_mem_nil]
    have h1 : (1 : Fin 2) ∉ (gathRows N A B D wf).startIndexMap :=
      show (1 : Fin 2) ∉ ([0] : List (Fin 2)) by decide
    have hk : (1 : Fin 2) ∈ (gathRows N A B D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-! ## The take's parts, read at an index -/

section Parts
variable (tok : IVec S32x8192 32)

/-- A token in range is not negative: the adjustment leaves it alone. -/
theorem adjusted_apply (p : Fin 32) (q : Fin 8192) (ht : (tok (ix2 p q)).toNat < 32000) :
    Hand.adjusted tok (ix2 p q) = tok (ix2 p q) := by
  have hc : IntOp.cmpi .slt (tok (ix2 p q)) 0#32 = 0#1 := by
    refine eq_zero_of_ne_one fun hc => ?_
    have hlt := IntOp.cmpi_slt.1 hc
    rw [toInt_of_lt ht, show (0#32 : BitVec 32).toInt = 0 from by decide] at hlt
    omega
  show Scalar.select (IntOp.cmpi .slt (tok (ix2 p q)) 0#32) _ (tok (ix2 p q)) = tok (ix2 p q)
  rw [hc, select_zero]

/-- The start index at `(p, q, 0)` is the adjusted token at `(p, q)`. -/
theorem starts_apply (p : Fin 32) (q : Fin 8192) (r : Fin 1) :
    Hand.starts tok (ix3 p q r) = Hand.adjusted tok (ix2 p q) := by
  unfold Hand.starts
  exact broadcastInDim_apply _ _ _ (ix3 p q r) (ix2 p q) fun a =>
    match a with
    | ⟨0, _⟩ => rfl
    | ⟨1, _⟩ => rfl

/-- For tokens in range the range test holds everywhere. -/
theorem inRange_apply (h : ∀ (p : Fin 32) (q : Fin 8192), (tok (ix2 p q)).toNat < 32000) (j : S32x8192.Idx) :
    Hand.inRange tok j = 1#1 := by
  unfold Hand.inRange
  refine reduce_andi_of_all _ _ _ (fun i => ?_) j
  obtain ⟨p, q, r, rfl⟩ : ∃ p q r, i = ix3 p q r := ⟨i 0, i 1, i 2, eq_ix3 i⟩
  show IntOp.andi (IntOp.cmpi .sge (Hand.starts tok (ix3 p q r)) 0#32)
    (IntOp.cmpi .sle (Hand.starts tok (ix3 p q r)) 31999#32) = 1#1
  rw [starts_apply, adjusted_apply tok p q (h p q)]
  have hpq := h p q
  refine IntOp.andi_eq_one.2 ⟨IntOp.cmpi_sge.2 ?_, IntOp.cmpi_sle.2 ?_⟩
  · rw [toInt_of_lt hpq, show (0#32 : BitVec 32).toInt = 0 from by decide]; omega
  · rw [toInt_of_lt hpq, show (31999#32 : BitVec 32).toInt = 31999 from by decide]; omega

/-- The take at `(p, q, d)`, for tokens in range: the table at `(d, token)`. -/
theorem taken_apply (W : FVec Ideal S128x32000 .f32)
    (h : ∀ (p : Fin 32) (q : Fin 8192), (tok (ix2 p q)).toNat < 32000) (p : Fin 32) (q : Fin 8192) (d : Fin 128) :
    Hand.taken (F := Ideal) tok W (ix3 p q d) = W (ix2 d ⟨(tok (ix2 p q)).toNat, h p q⟩) := by
  have hsel : broadcastInDim S32x8192x128 ![0, 1] bcast_S32x8192_S32x8192x128_0_1 (Hand.inRange tok) (ix3 p q d)
      = 1#1 := by
    rw [broadcastInDim_apply _ _ _ (ix3 p q d) (ix2 p q) (fun a => match a with | ⟨0, _⟩ => rfl | ⟨1, _⟩ => rfl)]
    exact inRange_apply tok h _
  unfold Hand.taken
  rw [select_apply, hsel, select_one,
    show gather_S32000x128_S32x8192x1_S32x8192x128_2_0_n_n_0_2_1128
      = gathRows 32000 32 8192 128 gather_S32000x128_S32x8192x1_S32x8192x128_2_0_n_n_0_2_1128_wf from rfl,
    gather_gathRows_apply (by decide : 0 < 32000), starts_apply, adjusted_apply tok p q (h p q),
    Cert.Proof.GS.row_of_toInt _ _ ⟨(tok (ix2 p q)).toNat, h p q⟩ (toInt_of_lt (h p q))]
  exact transpose_apply _ _ _ _ (ix2 d ⟨(tok (ix2 p q)).toNat, h p q⟩) fun b =>
    match b with
    | ⟨0, _⟩ => rfl
    | ⟨1, _⟩ => rfl

end Parts

/-- For tokens in range the take neither adjusts nor fills, the gathered row of the transposed table is the
    table's column, and the result is the embedding. -/
theorem result_eq (tok : IVec S32x8192 32) (W : FVec Ideal S128x32000 .f32) (b : FVec Ideal S128 .f32)
    (h : ∀ (p : Fin 32) (q : Fin 8192), (tok (ix2 p q)).toNat < 32000) :
    Cert.ReferenceIdeal.Hand.result (F := Ideal) tok W b = Cert.Proof.Embed.embed tok W b := by
  funext i
  obtain ⟨p, q, d, rfl⟩ : ∃ p q d, i = ix3 p q d := ⟨i 0, i 1, i 2, eq_ix3 i⟩
  rw [Cert.Proof.Embed.embed_apply, Cert.Proof.Embed.column_of_lt W _ d (h p q)]
  unfold Hand.result
  rw [addf_apply, taken_apply tok W h p q d]
  congr 1
  -- the bias, broadcast over the positions in two steps, read at (p, q, d)
  refine (broadcastInDim_apply _ _ _ (ix3 p q d) (ix3 (0 : Fin 1) (0 : Fin 1) d) fun a =>
    match a with
    | ⟨0, _⟩ => rfl
    | ⟨1, _⟩ => rfl
    | ⟨2, _⟩ => rfl).trans ?_
  exact broadcastInDim_apply _ _ _ _ (ix1 d) fun a =>
    match a with
    | ⟨0, _⟩ => rfl

end Cert.ReferenceIdeal.HandValue

end
-- ==== Proof.PreRange.lean ====
/-
  What the precondition says of the tokens: every token, read unsigned, is below 32000.

  The precondition is a conjunction of four reductions; its third and fourth say that every token is at least 0 and
  below 32000 as a signed word. A signed word that is at least 0 equals its unsigned reading, so both together bound
  the unsigned reading by 32000.
-/
import proofs.«430174_j7739531067774_1_alg».proof.Pre_finite_inputs
import proofs.«430174_j7739531067774_1_alg».proof.Proof.Gen.Pre_finite_inputs
import Idealize.ShloMosaic.Lib.ValueIdx
import Idealize.ShloMosaic.Lib.ReduceAll

noncomputable section

namespace Cert.Proof.PreRange

open Idealize.ShloMosaic Idealize.ShloMosaic.ValueIdx

variable {F : FTy → Type} [FloatOps F]

/-- Under the precondition every token names a column of the table. -/
theorem tokens_in_range (tok : IVec Cert.Pre_finite_inputs.S32x8192 32) (W : FVec F Cert.Pre_finite_inputs.S128x32000 .f32)
    (b : FVec F Cert.Pre_finite_inputs.S128 .f32)
    (h : Cert.Pre_finite_inputs.fn (F := F) tok W b = fun _ => 1#1) (p : Fin 32) (q : Fin 8192) :
    (tok (ix2 p q)).toNat < 32000 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the conjunction of four reductions: keep the third and the fourth
  obtain ⟨h123, hlt⟩ := IntOp.andi_eq_one.1 h0
  obtain ⟨_, hge⟩ := IntOp.andi_eq_one.1 h123
  -- each reduction is 1, so each compared element is 1
  have hge' := Host.reduce_andi_all _ _ _ _ _ hge (ix2 p q)
  have hlt' := Host.reduce_andi_all _ _ _ _ _ hlt (ix2 p q)
  -- the two comparisons, read signed
  have h1 : (0#32 : BitVec 32).toInt ≤ (tok (ix2 p q)).toInt := IntOp.cmpi_sge.1 hge'
  have h2 : (tok (ix2 p q)).toInt < (32000#32 : BitVec 32).toInt := IntOp.cmpi_slt.1 hlt'
  have e0 : (0#32 : BitVec 32).toInt = 0 := by decide
  have e1 : (32000#32 : BitVec 32).toInt = 32000 := by decide
  rw [e0] at h1
  rw [e1] at h2
  -- a signed word that is at least 0 equals its unsigned reading
  have hpos : 2 * (tok (ix2 p q)).toNat < 2 ^ 32 := BitVec.toInt_pos_iff.1 h1
  have hti : (tok (ix2 p q)).toInt = (tok (ix2 p q)).toNat := BitVec.toInt_eq_toNat_of_lt hpos
  omega

end Cert.Proof.PreRange

end
-- ==== Proof.lean ====
/- The kernel looks a token up in a 128 × 32000 table by multiplying a one-hot row with the table, 1280 columns at a
   time, and adds a bias; the reference takes the table's transposed row at the token and adds the bias. For a token
   in [0, 32000) the one-hot row has its single 1 at the token's column, so the product is that column, which is the
   transposed table's row: both programs compute the table's column at the token plus the bias. Outside that range
   the two differ (the reference wraps a negative token and fills elsewhere, the one-hot row is zero), which is why
   the precondition bounds the tokens.
   The two word-level frames are the generated ones; the reference's run, both programs' values and what the
   precondition says of the tokens are in the modules imported below. -/
import proofs.«430174_j7739531067774_1_alg».proof.Defs
import proofs.«430174_j7739531067774_1_alg».proof.Proof.Gen.Kernel
import proofs.«430174_j7739531067774_1_alg».proof.Proof.Gen.Kernel.Skeleton
import proofs.«430174_j7739531067774_1_alg».proof.Proof.Gen.Kernel.Loops
import proofs.«430174_j7739531067774_1_alg».proof.Proof.Gen.Kernel.Launch
import proofs.«430174_j7739531067774_1_alg».proof.Proof.Gen.Kernel.Points
import proofs.«430174_j7739531067774_1_alg».proof.Proof.Gen.Kernel.Frame
import proofs.«430174_j7739531067774_1_alg».proof.Proof.Gen.KernelIdeal
import proofs.«430174_j7739531067774_1_alg».proof.Proof.Gen.KernelIdeal.Skeleton
import proofs.«430174_j7739531067774_1_alg».proof.Proof.Gen.KernelIdeal.Loops
import proofs.«430174_j7739531067774_1_alg».proof.Proof.Gen.KernelIdeal.Launch
import proofs.«430174_j7739531067774_1_alg».proof.Proof.Gen.KernelIdeal.Points
import proofs.«430174_j7739531067774_1_alg».proof.Proof.Gen.KernelIdeal.Frame
import proofs.«430174_j7739531067774_1_alg».proof.Proof.Gen.ReferenceIdeal
import proofs.«430174_j7739531067774_1_alg».proof.Proof.Gen.Pre_finite_inputs
import proofs.«430174_j7739531067774_1_alg».proof.Proof.KernelValue
import proofs.«430174_j7739531067774_1_alg».proof.Proof.RefRun
import proofs.«430174_j7739531067774_1_alg».proof.Proof.RefValue
import proofs.«430174_j7739531067774_1_alg».proof.Proof.PreRange
import Idealize.ShloMosaic.Adequacy
import Idealize.ShloMosaic.Init

noncomputable section

namespace Cert.Proof

open Idealize.ShloMosaic Idealize.SL.Sem Cert.Kernel

/-- From memories that agree on the arguments both programs end at the embedding of the arguments: the kernel for
    every input, the reference for tokens in range, which the precondition gives. -/
theorem algebraic : Cert.algebraic_KernelIdeal_ReferenceIdeal := by
  intro m ρ m' ρ' hpre hagree
  refine ⟨fun c => Cert.Proof.Embed.embed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.EmbedValue.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.HandValue.result_eq _ _ _ (fun p q => Cert.Proof.PreRange.tokens_in_range _ _ _ (hpre c) p q)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Hand.run (F := Ideal) m ρ),
  trivial,
  algebraic⟩

end Cert.Proof

end
